-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S2x16000000 : Shape := ⟨2, ![2, 16000000]⟩
abbrev S16000000x3 : Shape := ⟨2, ![16000000, 3]⟩
abbrev S50x5 : Shape := ⟨2, ![50, 5]⟩
abbrev S50 : Shape := ⟨1, ![50]⟩
abbrev S20x50 : Shape := ⟨2, ![20, 50]⟩
abbrev S20 : Shape := ⟨1, ![20]⟩
abbrev S1x20 : Shape := ⟨2, ![1, 20]⟩
abbrev S1 : Shape := ⟨1, ![1]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S16000000x3 : S_.BroadcastsInDim S16000000x3 (![] : Fin 0 → Fin S16000000x3.rank)
  reducesTo_S16000000x3_S_d0_1 : S16000000x3.ReducesTo [0, 1] S_
  bcast_S_S50x5 : S_.BroadcastsInDim S50x5 (![] : Fin 0 → Fin S50x5.rank)
  reducesTo_S50x5_S_d0_1 : S50x5.ReducesTo [0, 1] S_
  bcast_S_S50 : S_.BroadcastsInDim S50 (![] : Fin 0 → Fin S50.rank)
  reducesTo_S50_S_d0 : S50.ReducesTo [0] S_
  bcast_S_S20x50 : S_.BroadcastsInDim S20x50 (![] : Fin 0 → Fin S20x50.rank)
  reducesTo_S20x50_S_d0_1 : S20x50.ReducesTo [0, 1] S_
  bcast_S_S20 : S_.BroadcastsInDim S20 (![] : Fin 0 → Fin S20.rank)
  reducesTo_S20_S_d0 : S20.ReducesTo [0] S_
  bcast_S_S1x20 : S_.BroadcastsInDim S1x20 (![] : Fin 0 → Fin S1x20.rank)
  reducesTo_S1x20_S_d0_1 : S1x20.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S20x50 .f32) (main_arg6 : FVec F S20 .f32) (main_arg7 : FVec F S1x20 .f32) (main_arg8 : FVec F S1 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S20x50 .f32 := Host.absf main_arg5
  let main_cst_6 : FVec F S_ .f32 := constant S_ .f32 0x7F800000#32
  let main_v20 : FVec F S20x50 .f32 := broadcastInDim S20x50 ![] bcast_S_S20x50 main_cst_6
  let main_v21 : IVec S20x50 1 := cmpf .olt main_v19 main_v20
  let main_c_7 : IVec S_ 1 := constantI S_ 1 1#1
  let main_v22 : IVec S_ 1 := (fun x v => Host.reduce IntOp.andi x v reducesTo_S20x50_S_d0_1 h_S_) main_v21 main_c_7
  let main_v23 : IVec S_ 1 := andi main_v18 main_v22
  let main_v24 : FVec F S20 .f32 := Host.absf main_arg6
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S1x20 .f32 := Host.absf main_arg7
  let main_cst_10 : FVec F S_ .f32 := constant S_ .f32 0x7F800000#32
  let main_v30 : FVec F S1x20 .f32 := broadcastInDim S1x20 ![] bcast_S_S1x20 main_cst_10
  let main_v31 : IVec S1x20 1 := cmpf .olt main_v29 main_v30
  let main_c_11 : IVec S_ 1 := constantI S_ 1 1#1
  let main_v32 : IVec S_ 1 := (fun x v => Host.reduce IntOp.andi x v reducesTo_S1x20_S_d0_1 h_S_) main_v31 main_c_11
  let main_v33 : IVec S_ 1 := andi main_v28 main_v32
  fn_part2 (F := F) main_arg8 main_v33

def fn {F : FTy → Type} [FloatOps F] (main_arg0 : FVec F S500000x2 .f32) (main_arg1 : IVec S2x16000000 32) (main_arg2 : FVec F S16000000x3 .f32) (main_arg3 : FVec F S50x5 .f32) (main_arg4 : FVec F S50 .f32) (main_arg5 : FVec F S20x50 .f32) (main_arg6 : FVec F S20 .f32) (main_arg7 : FVec F S1x20 .f32) (main_arg8 : FVec F S1 .f32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S16000000x3 .f32 := Host.absf main_arg2
  let main_cst_0 : FVec F S_ .f32 := constant S_ .f32 0x7F800000#32
  let main_v5 : FVec F S16000000x3 .f32 := broadcastInDim S16000000x3 ![] bcast_S_S16000000x3 main_cst_0
  let main_v6 : IVec S16000000x3 1 := cmpf .olt main_v4 main_v5
  let main_c_1 : IVec S_ 1 := constantI S_ 1 1#1
  let main_v7 : IVec S_ 1 := (fun x v => Host.reduce IntOp.andi x v reducesTo_S16000000x3_S_d0_1 h_S_) main_v6 main_c_1
  let main_v8 : IVec S_ 1 := andi main_v3 main_v7
  let main_v9 : FVec F S50x5 .f32 := Host.absf main_arg3
  let main_cst_2 : FVec F S_ .f32 := constant S_ .f32 0x7F800000#32
  let main_v10 : FVec F S50x5 .f32 := broadcastInDim S50x5 ![] bcast_S_S50x5 main_cst_2
  let main_v11 : IVec S50x5 1 := cmpf .olt main_v9 main_v10
  let main_c_3 : IVec S_ 1 := constantI S_ 1 1#1
  let main_v12 : IVec S_ 1 := (fun x v => Host.reduce IntOp.andi x v reducesTo_S50x5_S_d0_1 h_S_) main_v11 main_c_3
  let main_v13 : IVec S_ 1 := andi main_v8 main_v12
  let main_v14 : FVec F S50 .f32 := Host.absf main_arg4
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg5 main_arg6 main_arg7 main_arg8 main_v13 main_v16
-- ==== Kernel.lean ====
abbrev S500000x2 : Shape := ⟨2, ![500000, 2]⟩
abbrev S2x16000000 : Shape := ⟨2, ![2, 16000000]⟩
abbrev S16000000x3 : Shape := ⟨2, ![16000000, 3]⟩
abbrev S50x5 : Shape := ⟨2, ![50, 5]⟩
abbrev S50 : Shape := ⟨1, ![50]⟩
abbrev S20x50 : Shape := ⟨2, ![20, 50]⟩
abbrev S20 : Shape := ⟨1, ![20]⟩
abbrev S1x20 : Shape := ⟨2, ![1, 20]⟩
abbrev S1 : Shape := ⟨1, ![1]⟩
abbrev S1x16000000 : Shape := ⟨2, ![1, 16000000]⟩
abbrev S16000000 : Shape := ⟨1, ![16000000]⟩
abbrev S_ : Shape := ⟨0, ![]⟩
abbrev S500000x3 : Shape := ⟨2, ![500000, 3]⟩
abbrev S16000000x1 : Shape := ⟨2, ![16000000, 1]⟩
abbrev S50x2 : Shape := ⟨2, ![50, 2]⟩
abbrev S2x50 : Shape := ⟨2, ![2, 50]⟩
abbrev S50x3 : Shape := ⟨2, ![50, 3]⟩
abbrev S3x50 : Shape := ⟨2, ![3, 50]⟩
abbrev S50x20 : Shape := ⟨2, ![50, 20]⟩
abbrev S20x1 : Shape := ⟨2, ![20, 1]⟩
abbrev S1x50 : Shape := ⟨2, ![1, 50]⟩
abbrev S1x1 : Shape := ⟨2, ![1, 1]⟩
abbrev S500000x1 : Shape := ⟨2, ![500000, 1]⟩
abbrev S4000x2 : Shape := ⟨2, ![4000, 2]⟩
abbrev S4000x3 : Shape := ⟨2, ![4000, 3]⟩
abbrev S4000x1 : Shape := ⟨2, ![4000, 1]⟩
abbrev S4000x50 : Shape := ⟨2, ![4000, 50]⟩
abbrev S4000x20 : Shape := ⟨2, ![4000, 20]⟩

abbrev nBuf : Space → Nat
  | .hbm => 25
  | .vmem => 13
  | .smem => 0
  | _ => 0

abbrev bufTy : (tb : Table) → Fin (tcTables nBuf tb) → BufTy
  | .hbm, ⟨0, _⟩ => ⟨S500000x2, .f32⟩
  | .hbm, ⟨1, _⟩ => ⟨S2x16000000, .i32⟩
  | .hbm, ⟨2, _⟩ => ⟨S16000000x3, .f32⟩
  | .hbm, ⟨3, _⟩ => ⟨S50x5, .f32⟩
  | .hbm, ⟨4, _⟩ => ⟨S50, .f32⟩
  | .hbm, ⟨5, _⟩ => ⟨S20x50, .f32⟩
  | .hbm, ⟨6, _⟩ => ⟨S20, .f32⟩
  | .hbm, ⟨7, _⟩ => ⟨S1x20, .f32⟩
  | .hbm, ⟨8, _⟩ => ⟨S1, .f32⟩
  | .hbm, ⟨9, _⟩ => ⟨S1x16000000, .i32⟩
  | .hbm, ⟨10, _⟩ => ⟨S16000000, .i32⟩
  | .hbm, ⟨11, _⟩ => ⟨S_, .f32⟩
  | .hbm, ⟨12, _⟩ => ⟨S500000x3, .f32⟩
  | .hbm, ⟨13, _⟩ => ⟨S16000000x1, .i32⟩
  | .hbm, ⟨14, _⟩ => ⟨S500000x3, .f32⟩
  | .hbm, ⟨15, _⟩ => ⟨S50x2, .f32⟩
  | .hbm, ⟨16, _⟩ => ⟨S2x50, .f32⟩
  | .hbm, ⟨17, _⟩ => ⟨S50x3, .f32⟩
  | .hbm, ⟨18, _⟩ => ⟨S3x50, .f32⟩
  | .hbm, ⟨19, _⟩ => ⟨S50x20, .f32⟩
  | .hbm, ⟨20, _⟩ => ⟨S20x1, .f32⟩
  | .hbm, ⟨21, _⟩ => ⟨S1x50, .f32⟩
  | .hbm, ⟨22, _⟩ => ⟨S1x20, .f32⟩
  | .hbm, ⟨23, _⟩ => ⟨S1x1, .f32⟩
  | .hbm, ⟨24, _⟩ => ⟨S500000x1, .f32⟩
  | .local _ .vmem, ⟨0, _⟩ => ⟨S4000x2, .f32⟩
  | .local _ .vmem, ⟨1, _⟩ => ⟨S4000x2, .f32⟩
  | .local _ .vmem, ⟨2, _⟩ => ⟨S4000x3, .f32⟩
  | .local _ .vmem, ⟨3, _⟩ => ⟨S4000x3, .f32⟩
  | .local _ .vmem, ⟨4, _⟩ => ⟨S2x50, .f32⟩
  | .local _ .vmem, ⟨5, _⟩ => ⟨S3x50, .f32⟩
  | .local _ .vmem, ⟨6, _⟩ => ⟨S1x50, .f32⟩
  | .local _ .vmem, ⟨7, _⟩ => ⟨S50x20, .f32⟩
  | .local _ .vmem, ⟨8, _⟩ => ⟨S1x20, .f32⟩
  | .local _ .vmem, ⟨9, _⟩ => ⟨S20x1, .f32⟩
  | .local _ .vmem, ⟨10, _⟩ => ⟨S1x1, .f32⟩
  | .local _ .vmem, ⟨11, _⟩ => ⟨S4000x1, .f32⟩
  | .local _ .vmem, ⟨12, _⟩ => ⟨S4000x1, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x16000000_S1x16000000_1_0 : S2x16000000.Slices ![1, 0] S1x16000000
  shapeCasts_S1x16000000_S16000000 : S1x16000000.ShapeCasts S16000000
  bcast_S_S500000x3 : S_.BroadcastsInDim S500000x3 (![] : Fin 0 → Fin S500000x3.rank)
  bcast_S16000000_S16000000x1_0 : S16000000.BroadcastsInDim S16000000x1 (![0] : Fin 1 → Fin S16000000x1.rank)
  slices_S50x5_S50x2_0_0 : S50x5.Slices ![0, 0] S50x2
  transposes_S50x2_S2x50_1_0 : S50x2.Transposes [1, 0] S2x50
  slices_S50x5_S50x3_0_2 : S50x5.Slices ![0, 2] S50x3
  transposes_S50x3_S3x50_1_0 : S50x3.Transposes [1, 0] S3x50
  transposes_S20x50_S50x20_1_0 : S20x50.Transposes [1, 0] S50x20
  transposes_S1x20_S20x1_1_0 : S1x20.Transposes [1, 0] S20x1
  shapeCasts_S50_S1x50 : S50.ShapeCasts S1x50
  shapeCasts_S20_S1x20 : S20.ShapeCasts S1x20
  shapeCasts_S1_S1x1 : S1.ShapeCasts S1x1
  inb_S4000x2_S4000x2_0_0 : ∀ a, (![0, 0] : Fin 2 → Nat) a + S4000x2.size a ≤ S4000x2.size a
  h_S4000x2 : 0 < S4000x2.numel
  bitsLt_bf16_f32 : FTy.bits .bf16 < FTy.bits .f32
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S2x50_S2x50_0_0 : ∀ a, (![0, 0] : Fin 2 → Nat) a + S2x50.size a ≤ S2x50.size a
  h_S2x50 : 0 < S2x50.numel
  shapeCasts_S2x50_S2x50 : S2x50.ShapeCasts S2x50
  inb_S3x50_S3x50_0_0 : ∀ a, (![0, 0] : Fin 2 → Nat) a + S3x50.size a ≤ S3x50.size a
  h_S3x50 : 0 < S3x50.numel
  shapeCasts_S3x50_S3x50 : S3x50.ShapeCasts S3x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S4000x50 : S1x50.Broadcasts S4000x50
  inb_S50x20_S50x20_0_0 : ∀ a, (![0, 0] : Fin 2 → Nat) a + S50x20.size a ≤ S50x20.size a
  h_S50x20 : 0 < S50x20.numel
  shapeCasts_S50x20_S50x20 : S50x20.ShapeCasts S50x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S4000x20 : S1x20.Broadcasts S4000x20
  inb_S20x1_S20x1_0_0 : ∀ a, (![0, 0] : Fin 2 → Nat) a + S20x1.size a ≤ S20x1.size a
  h_S20x1 : 0 < S20x1.numel
  shapeCasts_S20x1_S20x1 : S20x1.ShapeCasts S20x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S500000x3_S16000000x1_S16000000x3_1_0_0_1_wf : ScatterDims.WF S500000x3 S16000000x1 S16000000x3 [1] [0] [0] 1
  dot_S4000x2_S2x50_S4000x50_1_0_0_1_n_n_wf : DotDims.WF S4000x2 S2x50 S4000x50 [1] [0] [0] [1] [] []
  dot_S4000x3_S3x50_S4000x50_1_0_0_1_n_n_wf : DotDims.WF S4000x3 S3x50 S4000x50 [1] [0] [0] [1] [] []
  dot_S4000x50_S50x20_S4000x20_1_0_0_1_n_n_wf : DotDims.WF S4000x50 S50x20 S4000x20 [1] [0] [0] [1] [] []
  dot_S4000x20_S20x1_S4000x1_1_0_0_1_n_n_wf : DotDims.WF S4000x20 S20x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S500000x2.size a
  hwx0_0 : ∀ i : grid0.Coords, EltTy.bits .f32 = 32 ∨ (Rect.block (s := S500000x2) S4000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S500000x3.size a
  hwx0_1 : ∀ i : grid0.Coords, EltTy.bits .f32 = 32 ∨ (Rect.block (s := S500000x3) S4000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x50.size a ≤ S2x50.size a
  hwx0_2 : ∀ i : grid0.Coords, EltTy.bits .f32 = 32 ∨ (Rect.block (s := S2x50) S2x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x50.size a ≤ S3x50.size a
  hwx0_3 : ∀ i : grid0.Coords, EltTy.bits .f32 = 32 ∨ (Rect.block (s := S3x50) S3x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x20.size a ≤ S50x20.size a
  hwx0_5 : ∀ i : grid0.Coords, EltTy.bits .f32 = 32 ∨ (Rect.block (s := S50x20) S50x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20.size a ≤ S1x20.size a
  hwx0_6 : ∀ i : grid0.Coords, EltTy.bits .f32 = 32 ∨ (Rect.block (s := S1x20) S1x20.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S20x1.size a ≤ S20x1.size a
  hwx0_7 : ∀ i : grid0.Coords, EltTy.bits .f32 = 32 ∨ (Rect.block (s := S20x1) S20x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x1.size a ≤ S500000x1.size a
  hwx0_9 : ∀ i : grid0.Coords, EltTy.bits .f32 = 32 ∨ (Rect.block (s := S500000x1) S4000x1.size (cc0_transform_9 i) (hinb0_9 i)).WholeWords (EltTy.packing .f32)

variable [Facts₀]

def scatter_S500000x3_S16000000x1_S16000000x3_1_0_0_1 : ScatterDims S500000x3 S16000000x1 S16000000x3 where
  updateWindowDims := [1]
  insertedWindowDims := [0]
  scatterDimsToOperandDims := [0]
  indexVectorDim := 1
  wf := scatter_S500000x3_S16000000x1_S16000000x3_1_0_0_1_wf
def dot_S4000x2_S2x50_S4000x50_1_0_0_1_n_n : DotDims S4000x2 S2x50 S4000x50 where
  lhsContracting := [1]
  rhsContracting := [0]
  lhsNonContracting := [0]
  rhsNonContracting := [1]
  lhsBatch := []
  rhsBatch := []
  wf := dot_S4000x2_S2x50_S4000x50_1_0_0_1_n_n_wf
def dot_S4000x3_S3x50_S4000x50_1_0_0_1_n_n : DotDims S4000x3 S3x50 S4000x50 where
  lhsContracting := [1]
  rhsContracting := [0]
  lhsNonContracting := [0]
  rhsNonContracting := [1]
  lhsBatch := []
  rhsBatch := []
  wf := dot_S4000x3_S3x50_S4000x50_1_0_0_1_n_n_wf
def dot_S4000x50_S50x20_S4000x20_1_0_0_1_n_n : DotDims S4000x50 S50x20 S4000x20 where
  lhsContracting := [1]
  rhsContracting := [0]
  lhsNonContracting := [0]
  rhsNonContracting := [1]
  lhsBatch := []
  rhsBatch := []
  wf := dot_S4000x50_S50x20_S4000x20_1_0_0_1_n_n_wf
def dot_S4000x20_S20x1_S4000x1_1_0_0_1_n_n : DotDims S4000x20 S20x1 S4000x1 where
  lhsContracting := [1]
  rhsContracting := [0]
  lhsNonContracting := [0]
  rhsNonContracting := [1]
  lhsBatch := []
  rhsBatch := []
  wf := dot_S4000x20_S20x1_S4000x1_1_0_0_1_n_n_wf

abbrev win0_0 : Pipeline.Window sig grid0 :=
  Pipeline.Window.ofSpec (Memref.whole main_arg0) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S3x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S50x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S20x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S4000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x2 : Shape := ⟨2, ![500000, 2]⟩
abbrev S2x16000000 : Shape := ⟨2, ![2, 16000000]⟩
abbrev S16000000x3 : Shape := ⟨2, ![16000000, 3]⟩
abbrev S50x5 : Shape := ⟨2, ![50, 5]⟩
abbrev S50 : Shape := ⟨1, ![50]⟩
abbrev S20x50 : Shape := ⟨2, ![20, 50]⟩
abbrev S20 : Shape := ⟨1, ![20]⟩
abbrev S1x20 : Shape := ⟨2, ![1, 20]⟩
abbrev S1 : Shape := ⟨1, ![1]⟩
abbrev S1x16000000 : Shape := ⟨2, ![1, 16000000]⟩
abbrev S16000000 : Shape := ⟨1, ![16000000]⟩
abbrev S_ : Shape := ⟨0, ![]⟩
abbrev S500000x3 : Shape := ⟨2, ![500000, 3]⟩
abbrev S16000000x1 : Shape := ⟨2, ![16000000, 1]⟩
abbrev S500000x5 : Shape := ⟨2, ![500000, 5]⟩
abbrev S5x50 : Shape := ⟨2, ![5, 50]⟩
abbrev S500000x50 : Shape := ⟨2, ![500000, 50]⟩
abbrev S1x50 : Shape := ⟨2, ![1, 50]⟩
abbrev S50x20 : Shape := ⟨2, ![50, 20]⟩
abbrev S500000x20 : Shape := ⟨2, ![500000, 20]⟩
abbrev S20x1 : Shape := ⟨2, ![20, 1]⟩
abbrev S500000x1 : Shape := ⟨2, ![500000, 1]⟩
abbrev S1x1 : Shape := ⟨2, ![1, 1]⟩

abbrev nBuf : Space → Nat
  | .hbm => 37
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S2x16000000, .i32⟩
  | .hbm, ⟨2, _⟩ => ⟨S16000000x3, .f32⟩
  | .hbm, ⟨3, _⟩ => ⟨S50x5, .f32⟩
  | .hbm, ⟨4, _⟩ => ⟨S50, .f32⟩
  | .hbm, ⟨5, _⟩ => ⟨S20x50, .f32⟩
  | .hbm, ⟨6, _⟩ => ⟨S20, .f32⟩
  | .hbm, ⟨7, _⟩ => ⟨S1x20, .f32⟩
  | .hbm, ⟨8, _⟩ => ⟨S1, .f32⟩
  | .hbm, ⟨9, _⟩ => ⟨S1x16000000, .i32⟩
  | .hbm, ⟨10, _⟩ => ⟨S16000000, .i32⟩
  | .hbm, ⟨11, _⟩ => ⟨S_, .f32⟩
  | .hbm, ⟨12, _⟩ => ⟨S500000x3, .f32⟩
  | .hbm, ⟨13, _⟩ => ⟨S16000000x1, .i32⟩
  | .hbm, ⟨14, _⟩ => ⟨S500000x3, .f32⟩
  | .hbm, ⟨15, _⟩ => ⟨S500000x5, .f32⟩
  | .hbm, ⟨16, _⟩ => ⟨S5x50, .f32⟩
  | .hbm, ⟨17, _⟩ => ⟨S500000x50, .f32⟩
  | .hbm, ⟨18, _⟩ => ⟨S1x50, .f32⟩
  | .hbm, ⟨19, _⟩ => ⟨S500000x50, .f32⟩
  | .hbm, ⟨20, _⟩ => ⟨S500000x50, .f32⟩
  | .hbm, ⟨21, _⟩ => ⟨S_, .f32⟩
  | .hbm, ⟨22, _⟩ => ⟨S500000x50, .f32⟩
  | .hbm, ⟨23, _⟩ => ⟨S500000x50, .f32⟩
  | .hbm, ⟨24, _⟩ => ⟨S50x20, .f32⟩
  | .hbm, ⟨25, _⟩ => ⟨S500000x20, .f32⟩
  | .hbm, ⟨26, _⟩ => ⟨S1x20, .f32⟩
  | .hbm, ⟨27, _⟩ => ⟨S500000x20, .f32⟩
  | .hbm, ⟨28, _⟩ => ⟨S500000x20, .f32⟩
  | .hbm, ⟨29, _⟩ => ⟨S_, .f32⟩
  | .hbm, ⟨30, _⟩ => ⟨S500000x20, .f32⟩
  | .hbm, ⟨31, _⟩ => ⟨S500000x20, .f32⟩
  | .hbm, ⟨32, _⟩ => ⟨S20x1, .f32⟩
  | .hbm, ⟨33, _⟩ => ⟨S500000x1, .f32⟩
  | .hbm, ⟨34, _⟩ => ⟨S1x1, .f32⟩
  | .hbm, ⟨35, _⟩ => ⟨S500000x1, .f32⟩
  | .hbm, ⟨36, _⟩ => ⟨S500000x1, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  slices_S2x16000000_S1x16000000_1_0 : S2x16000000.Slices ![1, 0] S1x16000000
  shapeCasts_S1x16000000_S16000000 : S1x16000000.ShapeCasts S16000000
  bcast_S_S500000x3 : S_.BroadcastsInDim S500000x3 (![] : Fin 0 → Fin S500000x3.rank)
  bcast_S16000000_S16000000x1_0 : S16000000.BroadcastsInDim S16000000x1 (![0] : Fin 1 → Fin S16000000x1.rank)
  concatenates_S500000x2_S500000x3_S500000x5_d1 : Shape.Concatenates [S500000x2, S500000x3] S500000x5 1
  transposes_S50x5_S5x50_1_0 : S50x5.Transposes [1, 0] S5x50
  bcast_S50_S1x50_1 : S50.BroadcastsInDim S1x50 (![1] : Fin 1 → Fin S1x50.rank)
  bcast_S1x50_S500000x50_0_1 : S1x50.BroadcastsInDim S500000x50 (![0, 1] : Fin 2 → Fin S500000x50.rank)
  bcast_S_S500000x50 : S_.BroadcastsInDim S500000x50 (![] : Fin 0 → Fin S500000x50.rank)
  transposes_S20x50_S50x20_1_0 : S20x50.Transposes [1, 0] S50x20
  bcast_S20_S1x20_1 : S20.BroadcastsInDim S1x20 (![1] : Fin 1 → Fin S1x20.rank)
  bcast_S1x20_S500000x20_0_1 : S1x20.BroadcastsInDim S500000x20 (![0, 1] : Fin 2 → Fin S500000x20.rank)
  bcast_S_S500000x20 : S_.BroadcastsInDim S500000x20 (![] : Fin 0 → Fin S500000x20.rank)
  transposes_S1x20_S20x1_1_0 : S1x20.Transposes [1, 0] S20x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  scatter_S500000x3_S16000000x1_S16000000x3_1_0_0_1_wf : ScatterDims.WF S500000x3 S16000000x1 S16000000x3 [1] [0] [0] 1
  dot_S500000x5_S5x50_S500000x50_1_0_0_1_n_n_wf : DotDims.WF S500000x5 S5x50 S500000x50 [1] [0] [0] [1] [] []
  dot_S500000x50_S50x20_S500000x20_1_0_0_1_n_n_wf : DotDims.WF S500000x50 S50x20 S500000x20 [1] [0] [0] [1] [] []
  dot_S500000x20_S20x1_S500000x1_1_0_0_1_n_n_wf : DotDims.WF S500000x20 S20x1 S500000x1 [1] [0] [0] [1] [] []

variable [Facts₀]

def scatter_S500000x3_S16000000x1_S16000000x3_1_0_0_1 : ScatterDims S500000x3 S16000000x1 S16000000x3 where
  updateWindowDims := [1]
  insertedWindowDims := [0]
  scatterDimsToOperandDims := [0]
  indexVectorDim := 1
  wf := scatter_S500000x3_S16000000x1_S16000000x3_1_0_0_1_wf
def dot_S500000x5_S5x50_S500000x50_1_0_0_1_n_n : DotDims S500000x5 S5x50 S500000x50 where
  lhsContracting := [1]
  rhsContracting := [0]
  lhsNonContracting := [0]
  rhsNonContracting := [1]
  lhsBatch := []
  rhsBatch := []
  wf := dot_S500000x5_S5x50_S500000x50_1_0_0_1_n_n_wf
def dot_S500000x50_S50x20_S500000x20_1_0_0_1_n_n : DotDims S500000x50 S50x20 S500000x20 where
  lhsContracting := [1]
  rhsContracting := [0]
  lhsNonContracting := [0]
  rhsNonContracting := [1]
  lhsBatch := []
  rhsBatch := []
  wf := dot_S500000x50_S50x20_S500000x20_1_0_0_1_n_n_wf
def dot_S500000x20_S20x1_S500000x1_1_0_0_1_n_n : DotDims S500000x20 S20x1 S500000x1 where
  lhsContracting := [1]
  rhsContracting := [0]
  lhsNonContracting := [0]
  rhsNonContracting := [1]
  lhsBatch := []
  rhsBatch := []
  wf := dot_S500000x20_S20x1_S500000x1_1_0_0_1_n_n_wf

class Facts : Prop extends Facts₀ where

variable [Facts]
-- ==== Proof.Mlp.lean ====
/-
  The vertex update, row by row, as mathematics over the extended reals.

  One vertex carries two attributes `v` and the three aggregated edge attributes `e` (the sum of the edge
  attributes over the edges that point at it). Its output is a three-layer perceptron of those five features,

    h1 j = max (Σ_a v a · w1v a j + Σ_b e b · w1e b j + b1 j) 0        (50 hidden units)
    h2 k = max (Σ_j h1 j · w2 j k + b2 k) 0                            (20 hidden units)
    out  = Σ_k h2 k · w3 k + b3

  with the first layer's weight matrix already split into the two columns that meet `v` and the three that meet
  `e`. The same first layer written over the five features joined end to end is a sum over five terms; the two
  spellings agree because addition on the extended reals is commutative and associative (no finiteness is needed:
  no product is distributed and nothing is cancelled).
-/
import Idealize.ShloMosaic.PureOps.Ideal
import Idealize.ShloMosaic.Lib.ValueIdx
import Mathlib.Algebra.BigOperators.Fin

noncomputable section

namespace Cert.VertexMlp

open Idealize.ShloMosaic Idealize.ShloMosaic.ValueIdx

/-- The first layer's pre-activation at hidden unit `j`: the vertex part plus the edge part plus the bias. -/
def pre1 (v : Fin 2 → EReal) (e : Fin 3 → EReal) (w1v : Fin 2 → Fin 50 → EReal) (w1e : Fin 3 → Fin 50 → EReal)
    (b1 : Fin 50 → EReal) (j : Fin 50) : EReal :=
  ((∑ a : Fin 2, v a * w1v a j) + (∑ b : Fin 3, e b * w1e b j)) + b1 j

/-- The second layer's pre-activation at hidden unit `k`, from the rectified first layer `h1`. -/
def pre2 (h1 : Fin 50 → EReal) (w2 : Fin 50 → Fin 20 → EReal) (b2 : Fin 20 → EReal) (k : Fin 20) : EReal :=
  (∑ j : Fin 50, h1 j * w2 j k) + b2 k

/-- One vertex's output: the perceptron of its two attributes and its three aggregated edge attributes. -/
def row (v : Fin 2 → EReal) (e : Fin 3 → EReal) (w1v : Fin 2 → Fin 50 → EReal) (w1e : Fin 3 → Fin 50 → EReal)
    (b1 : Fin 50 → EReal) (w2 : Fin 50 → Fin 20 → EReal) (b2 : Fin 20 → EReal) (w3 : Fin 20 → EReal) (b3 : EReal) : EReal :=
  (∑ k : Fin 20, max (pre2 (fun j => max (pre1 v e w1v w1e b1 j) 0) w2 b2 k) 0 * w3 k) + b3

/-- A sum over five terms is the sum of its first two plus the sum of its last three: addition on the extended
    reals is associative. -/
theorem sum_five_split (f : Fin 5 → EReal) :
    ∑ k : Fin 5, f k
      = (∑ a : Fin 2, f ⟨a.val, Nat.lt_of_lt_of_le a.isLt (by decide)⟩)
        + (∑ b : Fin 3, f ⟨2 + b.val, by have := b.isLt; omega⟩) := by
  rw [Fin.sum_univ_five, Fin.sum_univ_two, Fin.sum_univ_three]
  simp only [add_assoc]
  rfl

/-- The whole result array, index by index: row `n` of the output is the perceptron of row `n` of the vertex
    attributes and row `n` of the aggregated edge attributes, under the weights as the layers are given
    (`w1` is [50, 5], `w2` is [20, 50], `w3` is [1, 20]: each layer multiplies by the transpose). -/
def out (x0 : (⟨2, ![500000, 2]⟩ : Shape).Idx → EReal) (agg : (⟨2, ![500000, 3]⟩ : Shape).Idx → EReal)
    (w1 : (⟨2, ![50, 5]⟩ : Shape).Idx → EReal) (b1 : (⟨1, ![50]⟩ : Shape).Idx → EReal)
    (w2 : (⟨2, ![20, 50]⟩ : Shape).Idx → EReal) (b2 : (⟨1, ![20]⟩ : Shape).Idx → EReal)
    (w3 : (⟨2, ![1, 20]⟩ : Shape).Idx → EReal) (b3 : (⟨1, ![1]⟩ : Shape).Idx → EReal)
    (n : Fin 500000) : EReal :=
  row (fun a => x0 (ix2 n a)) (fun b => agg (ix2 n b))
    (fun a j => w1 (ix2 j (⟨a.val, Nat.lt_of_lt_of_le a.isLt (by decide)⟩ : Fin 5)))
    (fun b j => w1 (ix2 j (⟨2 + b.val, by have := b.isLt; omega⟩ : Fin 5)))
    (fun j => b1 (ix1 j)) (fun j k => w2 (ix2 k j)) (fun k => b2 (ix1 k)) (fun k => w3 (ix2 (0 : Fin 1) k)) (b3 (ix1 (0 : Fin 1)))

end Cert.VertexMlp

end
-- ==== Proof.LibPlainMatmul.lean ====
/-
  A plain matrix product into a zero accumulator, read at an entry, at the extended reals.

  For the dimension numbers of an M×K by K×N product (`DotDims.plain M K N`: the left factor contracted on its
  axis 1, the right on its axis 0, no batch axis) and any M, K, N:

    (l · r into 0) (p, c) = Σ_{k < K} l (p, k) · r (k, c).

  The library reads a product at an output index as a sum over the contraction INDEX (an index of a rank-one
  shape) of the operands at two computed indices; here the contraction index is exchanged for its one coordinate
  and the two operand indices are named by their coordinates: the left one is (row of the output, k), the right
  one (k, column of the output).
-/
import Idealize.ShloMosaic.PureOps.Ideal.Laws
import Idealize.ShloMosaic.Lib.ValueIdx

noncomputable section

namespace Cert.Lib.PlainMatmul

open Idealize.ShloMosaic Idealize.ShloMosaic.ValueIdx

variable (M K N : Nat)

/-- The left operand's index follows the output's row on its axis 0 (a non-contracted axis). -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's index carries the contracted position on its axis 1. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index carries the contracted position on its axis 0. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's index follows the output's column on its axis 1 (a non-contracted axis). -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, c) of an M×K by K×N product into the zero accumulator is the sum over the K contracted positions
    of row p of the left factor times column c of the right factor: exact at the extended reals, in any float
    formats of the two factors. -/
theorem apply {φ₁ φ₂ : FTy} (l : FVec Ideal ⟨2, ![M, K]⟩ φ₁) (r : FVec Ideal ⟨2, ![K, N]⟩ φ₂) (p : Fin M) (c : Fin N) :
    matmul (DotDims.plain M K N) none l r (constant (F := Ideal) ⟨2, ![M, N]⟩ .f32 0x00000000#32) (ix2 p c)
      = ∑ k : Fin K, l (ix2 p k) * r (ix2 k c) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_0 M K N _ _).trans hk
      | ⟨1, _⟩ => exact rhs_1 M K N _ _)
  rw [el, er]

end Cert.Lib.PlainMatmul

end
-- ==== Proof.KernelRow.lean ====
/-
  One block of the kernel, read entry by entry.

  At a grid point the body holds a block of 4000 vertices: their two attributes `P0`, their three aggregated edge
  attributes `P1`, and the whole of every weight array (`P2` = the first layer's two vertex columns transposed,
  `P3` = its three edge columns transposed, `P5`, `P7` = the later layers transposed, `P4`, `P6` = the biases as one
  row). Its stored value before the last bias is a chain of four matrix products into zero accumulators with a
  rectification after the first two layers. At the extended reals a change of float format is the identity and a
  product into a zero accumulator is the plain sum of products (`Proof/LibPlainMatmul.lean`: each of the four
  products has the dimension numbers of a plain rows-by-columns product), so entry (r, 0) of that value is the row
  perceptron of `Proof/Mlp.lean` applied to row r of the block.
-/
import proofs.«131361_j69621419868748_1_alg».proof.Proof.Gen.KernelIdeal.Skeleton
import proofs.«131361_j69621419868748_1_alg».proof.Proof.Mlp
import proofs.«131361_j69621419868748_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.TcCoe Idealize.ShloMosaic.ValueIdx

/-! ## The four products' dimension numbers are those of a plain product -/

theorem dims1 : dot_S4000x2_S2x50_S4000x50_1_0_0_1_n_n = DotDims.plain 4000 2 50 := rfl
theorem dims2 : dot_S4000x3_S3x50_S4000x50_1_0_0_1_n_n = DotDims.plain 4000 3 50 := rfl
theorem dims3 : dot_S4000x50_S50x20_S4000x20_1_0_0_1_n_n = DotDims.plain 4000 50 20 := rfl
theorem dims4 : dot_S4000x20_S20x1_S4000x1_1_0_0_1_n_n = DotDims.plain 4000 20 1 := rfl

/-- The vertex attributes [4000, 2] times the first layer's vertex columns [2, 50], at (p, c). -/
theorem mm1_apply (l : FVec Ideal S4000x2 .bf16) (r : FVec Ideal S2x50 .bf16) (p : Fin 4000) (c : Fin 50) :
    matmul dot_S4000x2_S2x50_S4000x50_1_0_0_1_n_n none l r (constant (F := Ideal) S4000x50 .f32 0x00000000#32) (ix2 p c)
      = ∑ k : Fin 2, l (ix2 p k) * r (ix2 k c) := by
  rw [dims1]; exact Cert.Lib.PlainMatmul.apply 4000 2 50 l r p c

/-- The aggregated edge attributes [4000, 3] times the first layer's edge columns [3, 50], at (p, c). -/
theorem mm2_apply (l : FVec Ideal S4000x3 .bf16) (r : FVec Ideal S3x50 .bf16) (p : Fin 4000) (c : Fin 50) :
    matmul dot_S4000x3_S3x50_S4000x50_1_0_0_1_n_n none l r (constant (F := Ideal) S4000x50 .f32 0x00000000#32) (ix2 p c)
      = ∑ k : Fin 3, l (ix2 p k) * r (ix2 k c) := by
  rw [dims2]; exact Cert.Lib.PlainMatmul.apply 4000 3 50 l r p c

/-- The first hidden layer [4000, 50] times the second layer's weights [50, 20], at (p, c). -/
theorem mm3_apply (l : FVec Ideal S4000x50 .bf16) (r : FVec Ideal S50x20 .bf16) (p : Fin 4000) (c : Fin 20) :
    matmul dot_S4000x50_S50x20_S4000x20_1_0_0_1_n_n none l r (constant (F := Ideal) S4000x20 .f32 0x00000000#32) (ix2 p c)
      = ∑ k : Fin 50, l (ix2 p k) * r (ix2 k c) := by
  rw [dims3]; exact Cert.Lib.PlainMatmul.apply 4000 50 20 l r p c

/-- The second hidden layer [4000, 20] times the last layer's weights [20, 1], at (p, c). -/
theorem mm4_apply (l : FVec Ideal S4000x20 .bf16) (r : FVec Ideal S20x1 .bf16) (p : Fin 4000) (c : Fin 1) :
    matmul dot_S4000x20_S20x1_S4000x1_1_0_0_1_n_n none l r (constant (F := Ideal) S4000x1 .f32 0x00000000#32) (ix2 p c)
      = ∑ k : Fin 20, l (ix2 p k) * r (ix2 k c) := by
  rw [dims4]; exact Cert.Lib.PlainMatmul.apply 4000 20 1 l r p c

/-! ## The body's value before the last bias, at entry (r, 0) -/

/-- Entry (r, 0) of the value the body computes from a block's loads is the sum over the second layer's 20 units
    of the rectified second layer times the last weights, where the second layer is fed the rectified first layer
    of row r: the first layer's two products are its vertex part and its edge part, each bias is read off its one
    row, and the literal the rectifications compare with is the zero word, the real number 0. -/
theorem pay2_at (P0 : Vec Ideal S4000x2 .f32) (P1 : Vec Ideal S4000x3 .f32) (P2 : Vec Ideal S2x50 .f32) (P3 : Vec Ideal S3x50 .f32)
    (P4 : Vec Ideal S1x50 .f32) (P5 : Vec Ideal S50x20 .f32) (P6 : Vec Ideal S1x20 .f32) (P7 : Vec Ideal S20x1 .f32) (r : Fin 4000) :
    k0_pay2 P0 P1 P2 P3 P4 P5 P6 P7 (ix2 r (0 : Fin 1))
      = ∑ k : Fin 20, max (VertexMlp.pre2 (fun j => max (VertexMlp.pre1 (fun a => P0 (ix2 r a)) (fun b => P1 (ix2 r b))
            (fun a j => P2 (ix2 a j)) (fun b j => P3 (ix2 b j)) (fun j => P4 (ix2 (0 : Fin 1) j)) j) 0)
          (fun j k => P5 (ix2 j k)) (fun k => P6 (ix2 (0 : Fin 1) k)) k) 0 * P7 (ix2 k (0 : Fin 1)) := by
  unfold k0_pay2
  refine (mm4_apply _ _ r 0).trans (Finset.sum_congr rfl fun k _ => ?_)
  refine congrArg₂ (· * ·) ?_ (congrFun (shapeCast_self P7 _) _)
  -- the second layer, rectified, at (r, k)
  refine congrArg₂ max ?_ Ideal.ofBits_zero_f32
  unfold VertexMlp.pre2
  refine congrArg₂ (· + ·) ?_ ((broadcastTo_1b_ab_apply _ _ r k).trans (congrFun (shapeCast_self P6 _) _))
  refine (mm3_apply _ _ r k).trans (Finset.sum_congr rfl fun j _ => ?_)
  refine congrArg₂ (· * ·) ?_ (congrFun (shapeCast_self P5 _) _)
  -- the first layer, rectified, at (r, j)
  refine congrArg₂ max ?_ Ideal.ofBits_zero_f32
  unfold VertexMlp.pre1
  refine congrArg₂ (· + ·) (congrArg₂ (· + ·) ?_ ?_) ((broadcastTo_1b_ab_apply _ _ r j).trans (congrFun (shapeCast_self P4 _) _))
  · refine (mm1_apply _ _ r j).trans (Finset.sum_congr rfl fun a _ => ?_)
    exact congrArg₂ (· * ·) rfl (congrFun (shapeCast_self P2 _) _)
  · refine (mm2_apply _ _ r j).trans (Finset.sum_congr rfl fun b _ => ?_)
    exact congrArg₂ (· * ·) (congrFun (shapeCast_self P1 _) _) (congrFun (shapeCast_self P3 _) _)

/-! ## The stored value, at entry (r, 0) -/

/-- Entry (r, 0) of what the body stores — the value above plus the last bias, one number broadcast over the
    block's rows — is the row perceptron of row r of the block's vertex attributes and aggregated edge attributes,
    under the weights and biases read off the block's other loads. -/
theorem pay_at (P0 : Vec Ideal S4000x2 .f32) (P1 : Vec Ideal S4000x3 .f32) (P2 : Vec Ideal S2x50 .f32) (P3 : Vec Ideal S3x50 .f32)
    (P4 : Vec Ideal S1x50 .f32) (P5 : Vec Ideal S50x20 .f32) (P6 : Vec Ideal S1x20 .f32) (P7 : Vec Ideal S20x1 .f32)
    (P8 : Vec Ideal S1x1 .f32) (r : Fin 4000) :
    k0_pay1 (k0_pay2 P0 P1 P2 P3 P4 P5 P6 P7) P8 (ix2 r (0 : Fin 1))
      = VertexMlp.row (fun a => P0 (ix2 r a)) (fun b => P1 (ix2 r b)) (fun a j => P2 (ix2 a j)) (fun b j => P3 (ix2 b j))
          (fun j => P4 (ix2 (0 : Fin 1) j)) (fun j k => P5 (ix2 j k)) (fun k => P6 (ix2 (0 : Fin 1) k))
          (fun k => P7 (ix2 k (0 : Fin 1))) (P8 (ix2 (0 : Fin 1) (0 : Fin 1))) := by
  unfold k0_pay1 VertexMlp.row
  exact congrArg₂ (· + ·) (pay2_at P0 P1 P2 P3 P4 P5 P6 P7 r)
    ((broadcastTo_1b_ab_apply _ _ r (0 : Fin 1)).trans (congrFun (shapeCast_self P8 _) _))

end Cert.KernelIdeal.Row

end
-- ==== Proof.Entry.lean ====
/-
  What the kernel finds in its operands when the region is entered.

  Before the region the program aggregates the edge attributes onto their target vertices (one scatter-add, the
  same operation the reference performs, never opened here) and re-lays the weights: the first layer's weight
  array [50, 5] is cut into its two vertex columns and its three edge columns and each part is transposed; the
  other two weight arrays are transposed; each bias is given a leading axis of extent one. Read at an index:

    vertex columns  (a, j) ↦ W1 (j, a)          edge columns (b, j) ↦ W1 (j, 2 + b)
    second weights  (j, k) ↦ W2 (k, j)          last weights (k, 0) ↦ W3 (0, k)
    biases          (0, j) ↦ b1 j,  (0, k) ↦ b2 k,  (0, 0) ↦ b3 0

  and the vertex attributes are as launched.
-/
import proofs.«131361_j69621419868748_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The aggregated edge attributes as a function of the edge index array and the edge attributes: the zero array
    [500000, 3] with every edge's three attributes added at the row its target names (row 1 of the index array).
    It is kept as this one term; both programs apply it to the same arguments. -/
def agg (x1 : (⟨S2x16000000, .i32⟩ : BufTy).Contents (Elt Ideal)) (x2 : (⟨S16000000x3, .f32⟩ : BufTy).Contents (Elt Ideal)) :
    (⟨S500000x3, .f32⟩ : BufTy).Contents (Elt Ideal) :=
  Host.scatterAdd scatter_S500000x3_S16000000x1_S16000000x3_1_0_0_1
    (broadcastInDim S500000x3 ![] bcast_S_S500000x3 (constant (F := Ideal) S_ .f32 0x00000000#32))
    (broadcastInDim S16000000x1 ![0] bcast_S16000000_S16000000x1_0
      (shapeCast _ (extractStridedSlice S1x16000000 ![1, 0] x1 slices_S2x16000000_S1x16000000_1_0) shapeCasts_S1x16000000_S16000000))
    x2

/-! ## Each operand array as the host operations' term of the launch memory -/

theorem V_agg (c : Dev nD) :
    (V m c main_v4 : S500000x3.Idx → EReal) = agg (m ((c : Thread nD τ).loc main_arg1)) (m ((c : Thread nD τ).loc main_arg2)) := by
  unfold agg
  dsimp only [V, hostOps0]; after_results <;> rfl

theorem V_w1v (c : Dev nD) :
    (V m c main_v6 : S2x50.Idx → EReal)
      = transpose S2x50 [1, 0] (extractStridedSlice S50x2 ![0, 0] (m ((c : Thread nD τ).loc main_arg3)) slices_S50x5_S50x2_0_0) transposes_S50x2_S2x50_1_0 := by
  dsimp only [V, hostOps0]; after_results <;> rfl

theorem V_w1e (c : Dev nD) :
    (V m c main_v8 : S3x50.Idx → EReal)
      = transpose S3x50 [1, 0] (extractStridedSlice S50x3 ![0, 2] (m ((c : Thread nD τ).loc main_arg3)) slices_S50x5_S50x3_0_2) transposes_S50x3_S3x50_1_0 := by
  dsimp only [V, hostOps0]; after_results <;> rfl

theorem V_w2 (c : Dev nD) :
    (V m c main_v9 : S50x20.Idx → EReal) = transpose S50x20 [1, 0] (m ((c : Thread nD τ).loc main_arg5)) transposes_S20x50_S50x20_1_0 := by
  dsimp only [V, hostOps0]; after_results <;> rfl

theorem V_w3 (c : Dev nD) :
    (V m c main_v10 : S20x1.Idx → EReal) = transpose S20x1 [1, 0] (m ((c : Thread nD τ).loc main_arg7)) transposes_S1x20_S20x1_1_0 := by
  dsimp only [V, hostOps0]; after_results <;> rfl

theorem V_b1 (c : Dev nD) :
    (V m c main_v11 : S1x50.Idx → EReal) = shapeCast _ (m ((c : Thread nD τ).loc main_arg4)) shapeCasts_S50_S1x50 := by
  dsimp only [V, hostOps0]; after_results <;> rfl

theorem V_b2 (c : Dev nD) :
    (V m c main_v12 : S1x20.Idx → EReal) = shapeCast _ (m ((c : Thread nD τ).loc main_arg6)) shapeCasts_S20_S1x20 := by
  dsimp only [V, hostOps0]; after_results <;> rfl

theorem V_b3 (c : Dev nD) :
    (V m c main_v13 : S1x1.Idx → EReal) = shapeCast _ (m ((c : Thread nD τ).loc main_arg8)) shapeCasts_S1_S1x1 := by
  dsimp only [V, hostOps0]; after_results <;> rfl

/-! ## The same, read at an index -/

/-- The first layer's vertex columns, transposed: entry (a, j) is the weight array at (j, a). -/
theorem w1v_at (c : Dev nD) (a : Fin 2) (j : Fin 50) :
    V m c main_v6 (ix2 a j) = m ((c : Thread nD τ).loc main_arg3) (ix2 j (⟨a.val, Nat.lt_of_lt_of_le a.isLt (by decide)⟩ : Fin 5)) :=
  (congrFun (V_w1v m c) (ix2 a j)).trans
    ((transpose_ix2_apply _ _ a j).trans (slice2_axis1_apply 0 _ _ j a ⟨a.val, Nat.lt_of_lt_of_le a.isLt (by decide)⟩ (Nat.zero_add _).symm))

/-- The first layer's edge columns, transposed: entry (b, j) is the weight array at (j, 2 + b). -/
theorem w1e_at (c : Dev nD) (b : Fin 3) (j : Fin 50) :
    V m c main_v8 (ix2 b j) = m ((c : Thread nD τ).loc main_arg3) (ix2 j (⟨2 + b.val, by have := b.isLt; omega⟩ : Fin 5)) :=
  (congrFun (V_w1e m c) (ix2 b j)).trans
    ((transpose_ix2_apply _ _ b j).trans (slice2_axis1_apply 2 _ _ j b ⟨2 + b.val, by have := b.isLt; omega⟩ rfl))

/-- The second layer's weights, transposed: entry (j, k) is the weight array at (k, j). -/
theorem w2_at (c : Dev nD) (j : Fin 50) (k : Fin 20) :
    V m c main_v9 (ix2 j k) = m ((c : Thread nD τ).loc main_arg5) (ix2 k j) :=
  (congrFun (V_w2 m c) (ix2 j k)).trans (transpose_ix2_apply _ _ j k)

/-- The last layer's weights, transposed: entry (k, 0) is the weight array at (0, k). -/
theorem w3_at (c : Dev nD) (k : Fin 20) :
    V m c main_v10 (ix2 k (0 : Fin 1)) = m ((c : Thread nD τ).loc main_arg7) (ix2 (0 : Fin 1) k) :=
  (congrFun (V_w3 m c) (ix2 k (0 : Fin 1))).trans (transpose_ix2_apply _ _ k (0 : Fin 1))

/-- The first bias as one row: entry (0, j) is the bias at j. -/
theorem b1_at (c : Dev nD) (j : Fin 50) :
    V m c main_v11 (ix2 (0 : Fin 1) j) = m ((c : Thread nD τ).loc main_arg4) (ix1 j) :=
  (congrFun (V_b1 m c) (ix2 (0 : Fin 1) j)).trans (shapeCast_a_1a_apply _ _ (0 : Fin 1) j)

/-- The second bias as one row: entry (0, k) is the bias at k. -/
theorem b2_at (c : Dev nD) (k : Fin 20) :
    V m c main_v12 (ix2 (0 : Fin 1) k) = m ((c : Thread nD τ).loc main_arg6) (ix1 k) :=
  (congrFun (V_b2 m c) (ix2 (0 : Fin 1) k)).trans (shapeCast_a_1a_apply _ _ (0 : Fin 1) k)

/-- The last bias as a [1, 1] array: its one entry is the bias's one entry. -/
theorem b3_at (c : Dev nD) :
    V m c main_v13 (ix2 (0 : Fin 1) (0 : Fin 1)) = m ((c : Thread nD τ).loc main_arg8) (ix1 (0 : Fin 1)) :=
  (congrFun (V_b3 m c) (ix2 (0 : Fin 1) (0 : Fin 1))).trans (shapeCast_a_1a_apply _ _ (0 : Fin 1) (0 : Fin 1))

end Cert.KernelIdeal.Entry

end
-- ==== Proof.BlockReads.lean ====
/-
  Each operand's block at a grid point, read off its array.

  The grid has 125 points. The vertex attributes, the aggregated edge attributes and the result are tiled along
  their rows in blocks of 4000, point t taking block t; every weight and bias array is one block, staged whole at
  every point. A block's element (y₀, y₁) sits in its array at (block index × block extent + y) on each axis, so
  row r of point t's block is row 4000 t + r of a row-tiled array, and an element of a whole-array block is the
  array's element at the same index.
-/
import proofs.«131361_j69621419868748_1_alg».proof.Proof.Gen.KernelIdeal.Frame
import Idealize.ShloMosaic.Lib.Pipeline.Value
import Idealize.ShloMosaic.Lib.ValueIdx

set_option maxRecDepth 16384

noncomputable section

namespace Cert.KernelIdeal.BlockReads

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

theorem hz : (![0, 0] : Fin 2 → Nat) = fun _ => 0 := funext fun a => by fin_cases a <;> rfl

/-- The printed index maps over the grid: the two row-tiled operands and the result move with the point along the
    rows; every weight and bias window stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## A block of a generic array

Stated for ANY array `A` of the operand's shape, so that the arithmetic of the block's position never looks inside
the operand (some operands are the results of long host computations). -/

/-- Row r of point t's block of a [500000, 2] array tiled by rows of 4000 is its row 4000 t + r. -/
theorem read0 (A : S500000x2.Idx → EReal) (t : Fin cfg0.N) (r : Fin 4000) (a : Fin 2) (n : Fin 500000) (hn : n.val = t.val * 4000 + r.val) :
    ((cfg0.win 0).blk t).view.read (Elt Ideal) A (ix2 r a) = A (ix2 n a) := by
  obtain ⟨e, e', -⟩ := idx_facts t
  show A (((cfg0.win 0).blk t).view.emb (ix2 r a)) = A (ix2 n a)
  refine congrArg A (funext fun ax => Fin.ext ?_)
  match ax with
  | ⟨0, _⟩ => show win0_0.index t (0 : Fin 2) * 4000 + 1 * r.val = n.val; omega
  | ⟨1, _⟩ => show win0_0.index t (1 : Fin 2) * 2 + 1 * a.val = a.val; omega

/-- Row r of point t's block of a [500000, 3] array tiled by rows of 4000 is its row 4000 t + r. -/
theorem read1 (A : S500000x3.Idx → EReal) (t : Fin cfg0.N) (r : Fin 4000) (b : Fin 3) (n : Fin 500000) (hn : n.val = t.val * 4000 + r.val) :
    ((cfg0.win 1).blk t).view.read (Elt Ideal) A (ix2 r b) = A (ix2 n b) := by
  obtain ⟨-, -, e, e', -⟩ := idx_facts t
  show A (((cfg0.win 1).blk t).view.emb (ix2 r b)) = A (ix2 n b)
  refine congrArg A (funext fun ax => Fin.ext ?_)
  match ax with
  | ⟨0, _⟩ => show win0_1.index t (0 : Fin 2) * 4000 + 1 * r.val = n.val; omega
  | ⟨1, _⟩ => show win0_1.index t (1 : Fin 2) * 3 + 1 * b.val = b.val; omega

/-- A [2, 50] array staged whole: its block's element is the array's element at the same index. -/
theorem read2 (A : S2x50.Idx → EReal) (t : Fin cfg0.N) (a : Fin 2) (j : Fin 50) :
    ((cfg0.win 2).blk t).view.read (Elt Ideal) A (ix2 a j) = A (ix2 a j) := by
  obtain ⟨-, -, -, -, e, e', -⟩ := idx_facts t
  show A (((cfg0.win 2).blk t).view.emb (ix2 a j)) = A (ix2 a j)
  refine congrArg A (funext fun ax => Fin.ext ?_)
  match ax with
  | ⟨0, _⟩ => show win0_2.index t (0 : Fin 2) * 2 + 1 * a.val = a.val; omega
  | ⟨1, _⟩ => show win0_2.index t (1 : Fin 2) * 50 + 1 * j.val = j.val; omega

/-- A [3, 50] array staged whole. -/
theorem read3 (A : S3x50.Idx → EReal) (t : Fin cfg0.N) (b : Fin 3) (j : Fin 50) :
    ((cfg0.win 3).blk t).view.read (Elt Ideal) A (ix2 b j) = A (ix2 b j) := by
  obtain ⟨-, -, -, -, -, -, e, e', -⟩ := idx_facts t
  show A (((cfg0.win 3).blk t).view.emb (ix2 b j)) = A (ix2 b j)
  refine congrArg A (funext fun ax => Fin.ext ?_)
  match ax with
  | ⟨0, _⟩ => show win0_3.index t (0 : Fin 2) * 3 + 1 * b.val = b.val; omega
  | ⟨1, _⟩ => show win0_3.index t (1 : Fin 2) * 50 + 1 * j.val = j.val; omega

/-- A [1, 50] array staged whole. -/
theorem read4 (A : S1x50.Idx → EReal) (t : Fin cfg0.N) (u : Fin 1) (j : Fin 50) :
    ((cfg0.win 4).blk t).view.read (Elt Ideal) A (ix2 u j) = A (ix2 u j) := by
  obtain ⟨-, -, -, -, -, -, -, -, e, e', -⟩ := idx_facts t
  show A (((cfg0.win 4).blk t).view.emb (ix2 u j)) = A (ix2 u j)
  refine congrArg A (funext fun ax => Fin.ext ?_)
  match ax with
  | ⟨0, _⟩ => show win0_4.index t (0 : Fin 2) * 1 + 1 * u.val = u.val; omega
  | ⟨1, _⟩ => show win0_4.index t (1 : Fin 2) * 50 + 1 * j.val = j.val; omega

/-- A [50, 20] array staged whole. -/
theorem read5 (A : S50x20.Idx → EReal) (t : Fin cfg0.N) (j : Fin 50) (k : Fin 20) :
    ((cfg0.win 5).blk t).view.read (Elt Ideal) A (ix2 j k) = A (ix2 j k) := by
  obtain ⟨-, -, -, -, -, -, -, -, -, -, e, e', -⟩ := idx_facts t
  show A (((cfg0.win 5).blk t).view.emb (ix2 j k)) = A (ix2 j k)
  refine congrArg A (funext fun ax => Fin.ext ?_)
  match ax with
  | ⟨0, _⟩ => show win0_5.index t (0 : Fin 2) * 50 + 1 * j.val = j.val; omega
  | ⟨1, _⟩ => show win0_5.index t (1 : Fin 2) * 20 + 1 * k.val = k.val; omega

/-- A [1, 20] array staged whole. -/
theorem read6 (A : S1x20.Idx → EReal) (t : Fin cfg0.N) (u : Fin 1) (k : Fin 20) :
    ((cfg0.win 6).blk t).view.read (Elt Ideal) A (ix2 u k) = A (ix2 u k) := by
  obtain ⟨-, -, -, -, -, -, -, -, -, -, -, -, e, e', -⟩ := idx_facts t
  show A (((cfg0.win 6).blk t).view.emb (ix2 u k)) = A (ix2 u k)
  refine congrArg A (funext fun ax => Fin.ext ?_)
  match ax with
  | ⟨0, _⟩ => show win0_6.index t (0 : Fin 2) * 1 + 1 * u.val = u.val; omega
  | ⟨1, _⟩ => show win0_6.index t (1 : Fin 2) * 20 + 1 * k.val = k.val; omega

/-- A [20, 1] array staged whole. -/
theorem read7 (A : S20x1.Idx → EReal) (t : Fin cfg0.N) (k : Fin 20) (u : Fin 1) :
    ((cfg0.win 7).blk t).view.read (Elt Ideal) A (ix2 k u) = A (ix2 k u) := by
  obtain ⟨-, -, -, -, -, -, -, -, -, -, -, -, -, -, e, e', -⟩ := idx_facts t
  show A (((cfg0.win 7).blk t).view.emb (ix2 k u)) = A (ix2 k u)
  refine congrArg A (funext fun ax => Fin.ext ?_)
  match ax with
  | ⟨0, _⟩ => show win0_7.index t (0 : Fin 2) * 20 + 1 * k.val = k.val; omega
  | ⟨1, _⟩ => show win0_7.index t (1 : Fin 2) * 1 + 1 * u.val = u.val; omega

/-- A [1, 1] array staged whole. -/
theorem read8 (A : S1x1.Idx → EReal) (t : Fin cfg0.N) (u v : Fin 1) :
    ((cfg0.win 8).blk t).view.read (Elt Ideal) A (ix2 u v) = A (ix2 u v) := by
  obtain ⟨-, -, -, -, -, -, -, -, -, -, -, -, -, -, -, -, e, e', -⟩ := idx_facts t
  show A (((cfg0.win 8).blk t).view.emb (ix2 u v)) = A (ix2 u v)
  refine congrArg A (funext fun ax => Fin.ext ?_)
  match ax with
  | ⟨0, _⟩ => show win0_8.index t (0 : Fin 2) * 1 + 1 * u.val = u.val; omega
  | ⟨1, _⟩ => show win0_8.index t (1 : Fin 2) * 1 + 1 * v.val = v.val; omega

/-! ## Each window's block at a point, read off its array as the region finds it -/

/-- Row r of point t's block of the vertex attributes is row 4000 t + r of the array. -/
theorem blk0_at (c : Dev nD) (t : Fin cfg0.N) (r : Fin 4000) (a : Fin 2) (n : Fin 500000) (hn : n.val = t.val * 4000 + r.val) :
    iblk m c 0 t (ix2 r a) = V m c main_arg0 (ix2 n a) := read0 (V m c main_arg0) t r a n hn
/-- Row r of point t's block of the aggregated edge attributes is row 4000 t + r of the array. -/
theorem blk1_at (c : Dev nD) (t : Fin cfg0.N) (r : Fin 4000) (b : Fin 3) (n : Fin 500000) (hn : n.val = t.val * 4000 + r.val) :
    iblk m c 1 t (ix2 r b) = V m c main_v4 (ix2 n b) := read1 (V m c main_v4) t r b n hn
/-- The first layer's vertex columns are staged whole at every point. -/
theorem blk2_at (c : Dev nD) (t : Fin cfg0.N) (a : Fin 2) (j : Fin 50) : iblk m c 2 t (ix2 a j) = V m c main_v6 (ix2 a j) :=
  read2 (V m c main_v6) t a j
/-- The first layer's edge columns are staged whole at every point. -/
theorem blk3_at (c : Dev nD) (t : Fin cfg0.N) (b : Fin 3) (j : Fin 50) : iblk m c 3 t (ix2 b j) = V m c main_v8 (ix2 b j) :=
  read3 (V m c main_v8) t b j
/-- The first bias row is staged whole at every point. -/
theorem blk4_at (c : Dev nD) (t : Fin cfg0.N) (u : Fin 1) (j : Fin 50) : iblk m c 4 t (ix2 u j) = V m c main_v11 (ix2 u j) :=
  read4 (V m c main_v11) t u j
/-- The second layer's weights are staged whole at every point. -/
theorem blk5_at (c : Dev nD) (t : Fin cfg0.N) (j : Fin 50) (k : Fin 20) : iblk m c 5 t (ix2 j k) = V m c main_v9 (ix2 j k) :=
  read5 (V m c main_v9) t j k
/-- The second bias row is staged whole at every point. -/
theorem blk6_at (c : Dev nD) (t : Fin cfg0.N) (u : Fin 1) (k : Fin 20) : iblk m c 6 t (ix2 u k) = V m c main_v12 (ix2 u k) :=
  read6 (V m c main_v12) t u k
/-- The last layer's weights are staged whole at every point. -/
theorem blk7_at (c : Dev nD) (t : Fin cfg0.N) (k : Fin 20) (u : Fin 1) : iblk m c 7 t (ix2 k u) = V m c main_v10 (ix2 k u) :=
  read7 (V m c main_v10) t k u
/-- The last bias is staged whole at every point. -/
theorem blk8_at (c : Dev nD) (t : Fin cfg0.N) (u v : Fin 1) : iblk m c 8 t (ix2 u v) = V m c main_v13 (ix2 u v) :=
  read8 (V m c main_v13) t u v

end Cert.KernelIdeal.BlockReads

end
-- ==== Proof.Blocks.lean ====
/-
  From blocks to the whole result array.

  The grid has 125 points; point t stages rows 4000 t … 4000 t + 3999 of the vertex attributes and of the
  aggregated edge attributes, the whole of every weight and bias array, and writes back rows 4000 t … 4000 t + 3999
  of the result. So entry (r, 0) of what point t writes back is the row perceptron of row 4000 t + r of the two
  row-tiled operands, under the weights as the host prelude laid them out (`Proof/Entry.lean`) — which is row
  4000 t + r of ONE array, `result`, written over the launch memory. The 125 blocks cover every row (row n lies in
  block n / 4000), so after the run the result array IS `result`.
-/
import proofs.«131361_j69621419868748_1_alg».proof.Proof.KernelValue
import proofs.«131361_j69621419868748_1_alg».proof.Proof.KernelRow
import proofs.«131361_j69621419868748_1_alg».proof.Proof.Entry
import proofs.«131361_j69621419868748_1_alg».proof.Proof.BlockReads
import proofs.«131361_j69621419868748_1_alg».proof.Proof.Mlp
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.BlockReads Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The whole result array as a function of the launch memory: row n is the row perceptron of row n of the vertex
    attributes and of the aggregated edge attributes. -/
def result (c : Dev nD) : S500000x1.Idx → EReal := fun i =>
  VertexMlp.out (m ((c : Thread nD τ).loc main_arg0)) (Entry.agg (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (⟨(i 0).val, (i 0).isLt⟩ : Fin 500000)

/-! ## What a point writes back -/

/-- A [4000, 1] block `X` written back at point t is block t of an array `G` as soon as its entry (r, 0) is
    `G`'s entry (4000 t + r, 0) for every r: the block's element (r, 0) sits in the array at row 4000 t + r.
    (Stated for any `X` and `G`: the position of a block does not depend on what it holds.) -/
theorem cut_eq_read (t : Fin cfg0.N) (X : Vec Ideal S4000x1 .f32) (G : S500000x1.Idx → EReal)
    (h : ∀ (r : Fin 4000) (n : Fin 500000), n.val = t.val * 4000 + r.val → X (ix2 r (0 : Fin 1)) = G (ix2 n (0 : Fin 1))) :
    (cfg0.win 9).cut (grid0.coords t) X = ((cfg0.win 9).blk t).view.read (Elt Ideal) G := by
  have hN : cfg0.N = 125 := N_0
  have ht : t.val < 125 := hN ▸ t.isLt
  obtain ⟨-, -, -, -, -, -, -, -, -, -, -, -, -, -, -, -, -, -, e9, e9'⟩ := idx_facts t
  funext y
  have hy0 : (y 0).val < 4000 := (y 0).isLt
  have hy1 : (y 1).val < 1 := (y 1).isLt
  show X y = G (((cfg0.win 9).blk t).view.emb y)
  have hy : y = ix2 (⟨(y 0).val, hy0⟩ : Fin 4000) (0 : Fin 1) :=
    funext fun ax => match ax with | ⟨0, _⟩ => rfl | ⟨1, _⟩ => Fin.ext (by show (y 1).val = 0; omega)
  have hemb : ((cfg0.win 9).blk t).view.emb y = ix2 (⟨t.val * 4000 + (y 0).val, by omega⟩ : Fin 500000) (0 : Fin 1) :=
    funext fun ax => Fin.ext (by
      match ax with
      | ⟨0, _⟩ => show win0_9.index t (0 : Fin 2) * 4000 + 1 * (y 0).val = t.val * 4000 + (y 0).val; omega
      | ⟨1, _⟩ => show win0_9.index t (1 : Fin 2) * 1 + 1 * (y 1).val = 0; omega)
  rw [hemb]
  exact (congrArg X hy).trans (h ⟨(y 0).val, hy0⟩ ⟨t.val * 4000 + (y 0).val, by omega⟩ rfl)

/-- Entry (r, 0) of the block the body leaves at point t is `result` at row 4000 t + r: the stored value is the row
    perceptron of row r of the block's loads (`Row.pay_at`), each load is its operand's block (`BlockReads`), and each
    operand is the host prelude's re-laying of an argument (`Entry`). -/
theorem out_at (c : Dev nD) (t : Fin cfg0.N) (r : Fin 4000) (n : Fin 500000) (hn : n.val = t.val * 4000 + r.val) :
    out0_9 (iblk m c 0 t) (iblk m c 1 t) (iblk m c 2 t) (iblk m c 3 t) (iblk m c 4 t) (iblk m c 5 t) (iblk m c 6 t) (iblk m c 7 t) (iblk m c 8 t) (ix2 r (0 : Fin 1)) = result m c (ix2 n (0 : Fin 1)) := by
  unfold out0_9
  rw [View.canon_unit_zero hz]
  simp only [View.ld_unit_zero (S := S4000x2) hz, View.ld_unit_zero (S := S4000x3) hz, View.ld_unit_zero (S := S2x50) hz,
    View.ld_unit_zero (S := S3x50) hz, View.ld_unit_zero (S := S1x50) hz, View.ld_unit_zero (S := S50x20) hz,
    View.ld_unit_zero (S := S1x20) hz, View.ld_unit_zero (S := S20x1) hz, View.ld_unit_zero (S := S1x1) hz]
  refine (Row.pay_at (iblk m c 0 t) (iblk m c 1 t) (iblk m c 2 t) (iblk m c 3 t) (iblk m c 4 t) (iblk m c 5 t) (iblk m c 6 t) (iblk m c 7 t) (iblk m c 8 t) r).trans ?_
  show _ = VertexMlp.out (m ((c : Thread nD τ).loc main_arg0)) (Entry.agg (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) n
  unfold VertexMlp.out
  have h0 : (fun a : Fin 2 => iblk m c 0 t (ix2 r a)) = fun a => (m ((c : Thread nD τ).loc main_arg0)) (ix2 n a) :=
    funext fun a => (blk0_at m c t r a n hn).trans (congrFun (V_main_arg0 m c) _)
  have h1 : (fun b : Fin 3 => iblk m c 1 t (ix2 r b)) = fun b => Entry.agg (m ((c : Thread nD τ).loc main_arg1)) (m ((c : Thread nD τ).loc main_arg2)) (ix2 n b) :=
    funext fun b => (blk1_at m c t r b n hn).trans (congrFun (Entry.V_agg m c) _)
  have h2 : (fun (a : Fin 2) (j : Fin 50) => iblk m c 2 t (ix2 a j)) = fun a j => (m ((c : Thread nD τ).loc main_arg3)) (ix2 j (⟨a.val, Nat.lt_of_lt_of_le a.isLt (by decide)⟩ : Fin 5)) :=
    funext fun a => funext fun j => (blk2_at m c t a j).trans (Entry.w1v_at m c a j)
  have h3 : (fun (b : Fin 3) (j : Fin 50) => iblk m c 3 t (ix2 b j)) = fun b j => (m ((c : Thread nD τ).loc main_arg3)) (ix2 j (⟨2 + b.val, by have := b.isLt; omega⟩ : Fin 5)) :=
    funext fun b => funext fun j => (blk3_at m c t b j).trans (Entry.w1e_at m c b j)
  have h4 : (fun j : Fin 50 => iblk m c 4 t (ix2 (0 : Fin 1) j)) = fun j => (m ((c : Thread nD τ).loc main_arg4)) (ix1 j) :=
    funext fun j => (blk4_at m c t 0 j).trans (Entry.b1_at m c j)
  have h5 : (fun (j : Fin 50) (k : Fin 20) => iblk m c 5 t (ix2 j k)) = fun j k => (m ((c : Thread nD τ).loc main_arg5)) (ix2 k j) :=
    funext fun j => funext fun k => (blk5_at m c t j k).trans (Entry.w2_at m c j k)
  have h6 : (fun k : Fin 20 => iblk m c 6 t (ix2 (0 : Fin 1) k)) = fun k => (m ((c : Thread nD τ).loc main_arg6)) (ix1 k) :=
    funext fun k => (blk6_at m c t 0 k).trans (Entry.b2_at m c k)
  have h7 : (fun k : Fin 20 => iblk m c 7 t (ix2 k (0 : Fin 1))) = fun k => (m ((c : Thread nD τ).loc main_arg7)) (ix2 (0 : Fin 1) k) :=
    funext fun k => (blk7_at m c t k 0).trans (Entry.w3_at m c k)
  have h8 : iblk m c 8 t (ix2 (0 : Fin 1) (0 : Fin 1)) = (m ((c : Thread nD τ).loc main_arg8)) (ix1 (0 : Fin 1)) :=
    (blk8_at m c t 0 0).trans (Entry.b3_at m c)
  rw [h0, h1, h2, h3, h4, h5, h6, h7, h8]

/-- WHAT POINT t WRITES BACK is block t of `result`. -/
theorem flushed_eq (c : Dev nD) (t : Fin cfg0.N) :
    (dats m 0 c).flushed 9 t = ((cfg0.win 9).blk t).view.read (Elt Ideal) (result m c) := by
  rw [ValueP.flushed9]
  exact cut_eq_read t _ _ (fun r n hn => out_at m c t r n hn)

/-! ## The cover, the final array, the run -/

/-- An index of the result array is in point t's block iff each coordinate is in the block's range on its axis. -/
theorem mem_blk (t : Fin cfg0.N) (i : S500000x1.Idx) :
    i ∈ ((cfg0.win 9).blk t).view.set ↔ ∀ a : Fin 2, win0_9.index t a * S4000x1.size a ≤ (i a).val ∧ (i a).val < win0_9.index t a * S4000x1.size a + S4000x1.size a := by
  show i ∈ ((View.whole main_v14).slice (win0_9.rect t)).set ↔ _
  rw [View.set_slice_whole, Rect.mem_set_unit]
  exact Iff.rfl

/-- Every row of the result lies in some point's block: row n in block n / 4000. -/
theorem cover (i : S500000x1.Idx) : ∃ t : Fin cfg0.N, (cfg0.win 9).flush t = true ∧ i ∈ ((cfg0.win 9).blk t).view.set := by
  have hN : cfg0.N = 125 := N_0
  have hi0 : (i 0).val < 500000 := (i 0).isLt
  have hi1 : (i 1).val < 1 := (i 1).isLt
  have hlt : (i 0).val / 4000 < cfg0.N := by rw [hN]; omega
  obtain ⟨-, -, -, -, -, -, -, -, -, -, -, -, -, -, -, -, -, -, e9, e9'⟩ := idx_facts ⟨(i 0).val / 4000, hlt⟩
  have e9v : win0_9.index ⟨(i 0).val / 4000, hlt⟩ (0 : Fin 2) = (i 0).val / 4000 := e9
  refine ⟨⟨(i 0).val / 4000, hlt⟩, flush0_9 _, ?_⟩
  rw [mem_blk]
  intro a
  match a with
  | ⟨0, _⟩ =>
    show win0_9.index ⟨(i 0).val / 4000, hlt⟩ (0 : Fin 2) * 4000 ≤ (i 0).val ∧ (i 0).val < win0_9.index ⟨(i 0).val / 4000, hlt⟩ (0 : Fin 2) * 4000 + 4000
    omega
  | ⟨1, _⟩ =>
    show win0_9.index ⟨(i 0).val / 4000, hlt⟩ (1 : Fin 2) * 1 ≤ (i 1).val ∧ (i 1).val < win0_9.index ⟨(i 0).val / 4000, hlt⟩ (1 : Fin 2) * 1 + 1
    omega

/-- THE RESULT ARRAY after the run is `result`. -/
theorem final (c : Dev nD) : (dats m 0 c).arrAt 9 cfg0.N = result m c :=
  (dats m 0 c).arrAt_eq_of_cover 9 (result m c) (fun t _ => flushed_eq m c t) cover

/-- The kernel's run, read: the result array at `result` of the launch memory, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (ValueP.run_blocks m ρ)

end Cert.KernelIdeal.Blocks

end
-- ==== Proof.RefRow.lean ====
/-
  The reference, read entry by entry.

  The reference joins the two vertex attributes and the three aggregated edge attributes into five features and
  multiplies by the transposed weights layer by layer. Read at output row n: the first product is a sum over the
  five features, whose first two terms read the vertex attributes and whose last three read the aggregated edge
  attributes (a joined array read on either side of the joint); that sum is the vertex part plus the edge part
  (`VertexMlp.sum_five_split`). Each transposed weight array read at (k, j) is the weight array at (j, k), each
  bias broadcast along the rows is the bias at its column, and the rectifications compare with the zero word, the
  real number 0. So row n of the reference's result is the row perceptron of `Proof/Mlp.lean`.
  The aggregation itself (a scatter-add over sixteen million edges) is never opened: it enters as one array.
-/
import proofs.«131361_j69621419868748_1_alg».proof.Proof.Gen.ReferenceIdeal.Read
import proofs.«131361_j69621419868748_1_alg».proof.Proof.Mlp
import Idealize.ShloMosaic.PureOps.Ideal.Laws
import Idealize.ShloMosaic.Lib.ValueIdx
import Idealize.ShloMosaic.Lib.Pipeline.Value

noncomputable section

namespace Cert.ReferenceIdeal.Row

open Cert.ReferenceIdeal Cert.ReferenceIdeal.Gen Cert.ReferenceIdeal.Read Idealize.ShloMosaic Idealize.ShloMosaic.TcCoe Idealize.ShloMosaic.ValueIdx

variable (x0 : (⟨S500000x2, .f32⟩ : BufTy).Contents (Elt Ideal)) (x1 : (⟨S2x16000000, .i32⟩ : BufTy).Contents (Elt Ideal))
  (x2 : (⟨S16000000x3, .f32⟩ : BufTy).Contents (Elt Ideal)) (x3 : (⟨S50x5, .f32⟩ : BufTy).Contents (Elt Ideal))
  (x4 : (⟨S50, .f32⟩ : BufTy).Contents (Elt Ideal)) (x5 : (⟨S20x50, .f32⟩ : BufTy).Contents (Elt Ideal))
  (x6 : (⟨S20, .f32⟩ : BufTy).Contents (Elt Ideal)) (x7 : (⟨S1x20, .f32⟩ : BufTy).Contents (Elt Ideal))
  (x8 : (⟨S1, .f32⟩ : BufTy).Contents (Elt Ideal))

/-! ## The five joined features, read on either side of the joint -/

/-- Columns 0 and 1 of the joined features are the vertex attributes. -/
theorem feat_left (n : Fin 500000) (a : Fin 2) (k : Fin 5) (hk : k.val = a.val) :
    val_main_v5 (F := Ideal) x0 x1 x2 (ix2 n k) = x0 (ix2 n a) := by
  unfold val_main_v5
  refine concatenate_pair_apply_left (1 : Fin S500000x5.rank) x0 (val_main_v4 (F := Ideal) x1 x2)
    concatenates_S500000x2_S500000x3_S500000x5_d1 (ix2 n k) rfl (ix2 n a) (fun b => ?_)
  match b with
  | ⟨0, _⟩ => rfl
  | ⟨1, _⟩ => exact hk.symm

/-- Columns 2, 3 and 4 of the joined features are the aggregated edge attributes, two columns to the left. -/
theorem feat_right (n : Fin 500000) (b : Fin 3) (k : Fin 5) (hk : k.val = 2 + b.val) :
    val_main_v5 (F := Ideal) x0 x1 x2 (ix2 n k) = val_main_v4 (F := Ideal) x1 x2 (ix2 n b) := by
  unfold val_main_v5
  refine concatenate_pair_apply_right (1 : Fin S500000x5.rank) x0 (val_main_v4 (F := Ideal) x1 x2)
    concatenates_S500000x2_S500000x3_S500000x5_d1 (ix2 n k) rfl rfl (ix2 n b) (fun c hc => ?_) ?_
  · match c with
    | ⟨0, _⟩ => rfl
    | ⟨1, _⟩ => exact absurd rfl hc
  · show b.val + 2 = k.val
    omega

/-! ## The generated index functions at a row and a column, by coordinates

Each stage reads its operand at an index computed from the output index; at an output index given by its two
coordinates these are again indices given by coordinates. They are stated once, so that no later step has to
compare two spellings of one index under a full-size array. -/

theorem lidx7 (n : Fin 500000) (j : Fin 50) (k : Fin 5) : lidx_main_v7 (ix2 n j) k = ix2 n k :=
  funext fun c => match c with | ⟨0, _⟩ => rfl | ⟨1, _⟩ => rfl
theorem ridx7 (n : Fin 500000) (j : Fin 50) (k : Fin 5) : idx_main_v6 (ridx_main_v7 (ix2 n j) k) = ix2 j k :=
  funext fun c => match c with | ⟨0, _⟩ => rfl | ⟨1, _⟩ => rfl
theorem bidx1 (n : Fin 500000) (j : Fin 50) : idx_main_v8 (idx_main_v9 (ix2 n j)) = ix1 j :=
  funext fun c => match c with | ⟨0, _⟩ => rfl
theorem lidx13 (n : Fin 500000) (k : Fin 20) (j : Fin 50) : lidx_main_v13 (ix2 n k) j = ix2 n j :=
  funext fun c => match c with | ⟨0, _⟩ => rfl | ⟨1, _⟩ => rfl
theorem ridx13 (n : Fin 500000) (k : Fin 20) (j : Fin 50) : idx_main_v12 (ridx_main_v13 (ix2 n k) j) = ix2 k j :=
  funext fun c => match c with | ⟨0, _⟩ => rfl | ⟨1, _⟩ => rfl
theorem bidx2 (n : Fin 500000) (k : Fin 20) : idx_main_v14 (idx_main_v15 (ix2 n k)) = ix1 k :=
  funext fun c => match c with | ⟨0, _⟩ => rfl
theorem lidx19 (n : Fin 500000) (k : Fin 20) : lidx_main_v19 (ix2 n (0 : Fin 1)) k = ix2 n k :=
  funext fun c => match c with | ⟨0, _⟩ => rfl | ⟨1, _⟩ => rfl
theorem ridx19 (n : Fin 500000) (k : Fin 20) : idx_main_v18 (ridx_main_v19 (ix2 n (0 : Fin 1)) k) = ix2 (0 : Fin 1) k :=
  funext fun c => match c with | ⟨0, _⟩ => rfl | ⟨1, _⟩ => rfl
theorem bidx3 (n : Fin 500000) : idx_main_v20 (idx_main_v21 (ix2 n (0 : Fin 1))) = ix1 (0 : Fin 1) :=
  funext fun c => match c with | ⟨0, _⟩ => rfl

/-! ## The three layers -/

/-- The rectified first layer at (n, j). -/
theorem layer1_at (n : Fin 500000) (j : Fin 50) :
    val_main_v11 (F := Ideal) x0 x1 x2 x3 x4 (ix2 n j)
      = max (VertexMlp.pre1 (fun a => x0 (ix2 n a)) (fun b => val_main_v4 (F := Ideal) x1 x2 (ix2 n b))
          (fun a j => x3 (ix2 j (⟨a.val, Nat.lt_of_lt_of_le a.isLt (by decide)⟩ : Fin 5)))
          (fun b j => x3 (ix2 j (⟨2 + b.val, by have := b.isLt; omega⟩ : Fin 5)))
          (fun j => x4 (ix1 j)) j) 0 := by
  rw [val_main_v11_apply, val_main_v10_apply, val_main_v7_apply, val_main_call0_v0_apply, val_main_call0_cst_apply,
    val_main_v9_apply, val_main_v8_apply, bidx1, VertexMlp.sum_five_split]
  unfold VertexMlp.pre1
  refine congrArg₂ max (congrArg₂ (· + ·) (congrArg₂ (· + ·) (Finset.sum_congr rfl fun a _ => ?_) (Finset.sum_congr rfl fun b _ => ?_)) rfl) Ideal.ofBits_zero_f32
  · refine congrArg₂ (· * ·) ((congrArg (val_main_v5 (F := Ideal) x0 x1 x2) (lidx7 n j _)).trans (feat_left x0 x1 x2 n a _ rfl))
      ((val_main_v6_apply x3 _).trans (congrArg x3 (ridx7 n j _)))
  · refine congrArg₂ (· * ·) ((congrArg (val_main_v5 (F := Ideal) x0 x1 x2) (lidx7 n j _)).trans (feat_right x0 x1 x2 n b _ rfl))
      ((val_main_v6_apply x3 _).trans (congrArg x3 (ridx7 n j _)))

/-- The rectified second layer at (n, k), over the rectified first layer of row n. -/
theorem layer2_at (n : Fin 500000) (k : Fin 20) :
    val_main_v17 (F := Ideal) x0 x1 x2 x3 x4 x5 x6 (ix2 n k)
      = max (VertexMlp.pre2 (fun j => val_main_v11 (F := Ideal) x0 x1 x2 x3 x4 (ix2 n j)) (fun j k => x5 (ix2 k j)) (fun k => x6 (ix1 k)) k) 0 := by
  rw [val_main_v17_apply, val_main_v16_apply, val_main_v13_apply, val_main_call1_v0_apply, val_main_call1_cst_apply,
    val_main_v15_apply, val_main_v14_apply, bidx2]
  unfold VertexMlp.pre2
  refine congrArg₂ max (congrArg₂ (· + ·) (Finset.sum_congr rfl fun j _ => ?_) rfl) Ideal.ofBits_zero_f32
  exact congrArg₂ (· * ·) (congrArg (val_main_v11 (F := Ideal) x0 x1 x2 x3 x4) (lidx13 n k j))
    ((val_main_v12_apply x5 _).trans (congrArg x5 (ridx13 n k j)))

/-- Row n of the reference's result is the row perceptron of row n of the vertex attributes and of the
    aggregated edge attributes. -/
theorem result_at (n : Fin 500000) :
    val_main_v22 (F := Ideal) x0 x1 x2 x3 x4 x5 x6 x7 x8 (ix2 n (0 : Fin 1))
      = VertexMlp.out x0 (val_main_v4 (F := Ideal) x1 x2) x3 x4 x5 x6 x7 x8 n := by
  rw [val_main_v22_apply, val_main_v19_apply, val_main_v21_apply, val_main_v20_apply, bidx3]
  unfold VertexMlp.out VertexMlp.row
  refine congrArg₂ (· + ·) (Finset.sum_congr rfl fun k _ => ?_) rfl
  refine congrArg₂ (· * ·) ?_ ((val_main_v18_apply x7 _).trans (congrArg x7 (ridx19 n k)))
  refine ((congrArg (val_main_v17 (F := Ideal) x0 x1 x2 x3 x4 x5 x6) (lidx19 n k)).trans (layer2_at x0 x1 x2 x3 x4 x5 x6 n k)).trans ?_
  refine congrArg₂ max (congrArg (fun h => VertexMlp.pre2 h (fun j k => x5 (ix2 k j)) (fun k => x6 (ix1 k)) k) (funext fun j => ?_)) rfl
  exact layer1_at x0 x1 x2 x3 x4 n j

end Cert.ReferenceIdeal.Row

end
-- ==== Proof.lean ====
/-
  The vertex update of a message-passing layer — edge attributes summed onto their target vertices, then a
  three-layer perceptron (5 → 50 → 20 → 1, rectified after the first two layers) of each vertex's two attributes
  and three aggregated edge attributes — computed by a kernel over blocks of 4000 vertices, against the plain
  array program.

  Both programs aggregate the edges by the same scatter-add of the same arguments; that array enters both sides as
  one term and is never opened. The kernel cuts the first layer's weight array into its two vertex columns and its
  three edge columns and adds the two products; the reference joins the five features and takes one product. At
  the extended reals a change of float format is the identity and every matrix product is the exact sum of
  products, so row n of either result is the same row perceptron (`Proof/Mlp.lean`): the reference's sum over five
  features is the kernel's sum over two plus its sum over three, by associativity of addition alone — no input
  needs to be finite for that, and the precondition is not used.

  The kernel's side: `Proof/KernelRow.lean` (one block's stored value at an entry), `Proof/Entry.lean` (the
  operands as the region finds them), `Proof/Blocks.lean` (the 125 blocks tile the result; the run).
  The reference's side: `Proof/RefRow.lean` (its stages read at a row).
  The frames of the two kernel programs are the generated frame certificates; the reference's frame is its run
  with the result forgotten; the idealization rewrote nothing, so there is nothing to preserve.
-/
import proofs.«131361_j69621419868748_1_alg».proof.Defs
import proofs.«131361_j69621419868748_1_alg».proof.Proof.Gen.Kernel
import proofs.«131361_j69621419868748_1_alg».proof.Proof.Gen.Kernel.Skeleton
import proofs.«131361_j69621419868748_1_alg».proof.Proof.Gen.Kernel.Launch
import proofs.«131361_j69621419868748_1_alg».proof.Proof.Gen.Kernel.Points
import proofs.«131361_j69621419868748_1_alg».proof.Proof.Gen.Kernel.Frame
import proofs.«131361_j69621419868748_1_alg».proof.Proof.Gen.KernelIdeal
import proofs.«131361_j69621419868748_1_alg».proof.Proof.Gen.KernelIdeal.Skeleton
import proofs.«131361_j69621419868748_1_alg».proof.Proof.Gen.KernelIdeal.Launch
import proofs.«131361_j69621419868748_1_alg».proof.Proof.Gen.KernelIdeal.Points
import proofs.«131361_j69621419868748_1_alg».proof.Proof.Gen.KernelIdeal.Frame
import proofs.«131361_j69621419868748_1_alg».proof.Proof.Gen.ReferenceIdeal
import proofs.«131361_j69621419868748_1_alg».proof.Proof.Gen.Pre_finite_inputs
import proofs.«131361_j69621419868748_1_alg».proof.Proof.Gen.ReferenceIdeal.Run
import proofs.«131361_j69621419868748_1_alg».proof.Proof.Gen.ReferenceIdeal.Read
import proofs.«131361_j69621419868748_1_alg».proof.Proof.Blocks
import proofs.«131361_j69621419868748_1_alg».proof.Proof.RefRow
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel program's aggregation of the edges and the reference's are one array: the same scatter-add (same
    dimension numbers) of the zero array, of row 1 of the edge index array as a column, and of the edge
    attributes. Stage by stage the two terms are spelt alike; the scatter itself is not opened. -/
theorem agg_eq (x1 : (⟨Cert.KernelIdeal.S2x16000000, .i32⟩ : BufTy).Contents (Elt Ideal))
    (x2 : (⟨Cert.KernelIdeal.S16000000x3, .f32⟩ : BufTy).Contents (Elt Ideal)) :
    Cert.KernelIdeal.Entry.agg x1 x2 = Cert.ReferenceIdeal.Read.val_main_v4 (F := Ideal) x1 x2 := by
  unfold Cert.KernelIdeal.Entry.agg Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_cst
  rfl

theorem frame_k : Cert.frame_Kernel :=
  fun m ρ _ => Cert.Kernel.Gen.frame m ρ

theorem frame_ki : Cert.frame_KernelIdeal :=
  fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- At the extended reals both programs end with the result array at `Blocks.result` of arguments that agree:
    the kernel's by its run read block by block, the reference's by its run read row by row. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v22_eq, h0, h1, h2, h3, h4, h5, h6, h7, h8]
  funext i
  obtain ⟨n, q, rfl⟩ : ∃ (n : Fin 500000) (q : Fin 1), i = ix2 n q := ⟨i 0, i 1, eq_ix2 i⟩
  obtain rfl : q = 0 := Subsingleton.elim _ _
  rw [Cert.ReferenceIdeal.Row.result_at, ← agg_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
